-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8192x1024 : Shape := ⟨2, ![8192, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4096x1024 .f32) (main_arg1 : FVec F S8192x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4096x1024 : Shape := ⟨2, ![4096, 1024]⟩
abbrev S8192x1024 : Shape := ⟨2, ![8192, 1024]⟩
abbrev S4096x8192 : Shape := ⟨2, ![4096, 8192]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S4096x8192, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  reduces_S1024x1024_S1024 : S1024x1024.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x1024_p1_0_S1024x1024 : S1024x1024.Transposes [1, 0] S1024x1024
  broadcasts_S512x1_S512x1024 : S512x1.Broadcasts S512x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x8192.size a
  hwx0_2 : ∀ i : grid0.Coords, EltTy.bits .f32 = 32 ∨ (Rect.block (s := S4096x8192) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S8192x1024 : Shape := ⟨2, ![8192, 1024]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4096x1 : Shape := ⟨2, ![4096, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S4096x8192, .f32⟩
  | .hbm, ⟨9, _⟩ => ⟨S4096x1, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  reducesTo_S8192x1024_S8192_d1 : S8192x1024.ReducesTo [1] S8192
  bcast_S4096_S4096x1_0 : S4096.BroadcastsInDim S4096x1 (![0] : Fin 1 → Fin S4096x1.rank)
  bcast_S_S4096x8192 : S_.BroadcastsInDim S4096x8192 (![] : Fin 0 → Fin S4096x8192.rank)
  bcast_S4096x1_S4096x8192_0_1 : S4096x1.BroadcastsInDim S4096x8192 (![0, 1] : Fin 2 → Fin S4096x8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S4096x1024_S8192x1024_S4096x8192_1_1_0_0_n_n_wf : DotDims.WF S4096x1024 S8192x1024 S4096x8192 [1] [1] [0] [0] [] []

variable [Facts₀]

def dot_S4096x1024_S8192x1024_S4096x8192_1_1_0_0_n_n : DotDims S4096x1024 S8192x1024 S4096x8192 where
  lhsContracting := [1]
  rhsContracting := [1]
  lhsNonContracting := [0]
  rhsNonContracting := [0]
  lhsBatch := []
  rhsBatch := []
  wf := dot_S4096x1024_S8192x1024_S4096x8192_1_1_0_0_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.NegSqDist.lean ====
/-
  The negated squared distance between the rows of two matrices, in its expanded form.

  For a matrix x of 4096 rows and a matrix y of 8192 rows, each row of 1024 entries, the entry (p, q) of the
  result is
      −((Σₖ x[p,k]² − 2 · Σₖ x[p,k] · y[q,k]) + Σₖ y[q,k]²),
  that is −|x_p − y_q|² written as |x_p|² − 2⟨x_p, y_q⟩ + |y_q|², read on the extended reals with the sums, the
  difference and the sum grouped exactly so. An entry depends on ONE row of each matrix, so the same expression of two
  rows (`entry`) describes a tile computed from a block of rows of x and a block of rows of y, and the whole array.
-/
import Idealize.ShloMosaic.PureOps.Ideal.Laws
import Idealize.ShloMosaic.Lib.ValueIdx

noncomputable section

open scoped BigOperators

namespace Cert.NegSqDist

open Idealize.ShloMosaic Idealize.ShloMosaic.ValueIdx

/-- The factor two of the cross term, as the single-precision word both programs write it with. -/
abbrev two : EReal := Ideal.ofBits .f32 0x40000000#32

/-- The entry made of a row `xr` of the first matrix and a row `yr` of the second:
    −((|xr|² − 2·⟨xr, yr⟩) + |yr|²). -/
def entry (xr yr : Fin 1024 → EReal) : EReal :=
  -((∑ k, xr k * xr k - two * ∑ k, xr k * yr k) + ∑ k, yr k * yr k)

/-- The first coordinate of a matrix index, typed by the number of rows. -/
abbrev rowOf {n0 n1 : ℕ} (i : (⟨2, ![n0, n1]⟩ : Shape).Idx) : Fin n0 := ⟨(i 0).val, idx2_lt0 i⟩
/-- The second coordinate of a matrix index, typed by the number of columns. -/
abbrev colOf {n0 n1 : ℕ} (i : (⟨2, ![n0, n1]⟩ : Shape).Idx) : Fin n1 := ⟨(i 1).val, idx2_lt1 i⟩

/-- The whole result: at (p, q) the entry of row p of `x` and row q of `y`. -/
def negSqDist (x : (⟨2, ![4096, 1024]⟩ : Shape).Idx → EReal) (y : (⟨2, ![8192, 1024]⟩ : Shape).Idx → EReal) :
    (⟨2, ![4096, 8192]⟩ : Shape).Idx → EReal :=
  fun i => entry (fun k => x (ix2 (rowOf i) k)) (fun k => y (ix2 (colOf i) k))

/-- Read at explicit coordinates. -/
theorem negSqDist_ix2 (x : (⟨2, ![4096, 1024]⟩ : Shape).Idx → EReal) (y : (⟨2, ![8192, 1024]⟩ : Shape).Idx → EReal)
    (p : Fin 4096) (q : Fin 8192) :
    negSqDist x y (ix2 p q) = entry (fun k => x (ix2 p k)) (fun k => y (ix2 q k)) := rfl

/-- Subtracting from the zero word is negating: 0 − v = −v on the extended reals, for every v. -/
theorem zero_word_sub (v : EReal) : Ideal.ofBits .f32 0x00000000#32 - v = -v := by
  rw [Ideal.ofBits_zero_f32, zero_sub]

end Cert.NegSqDist

end
-- ==== Proof.TileEntry.lean ====
/-
  One entry of the tile the kernel body computes from a block of 512 rows of x and a block of 1024 rows of y.

  The body squares each block entry by entry and sums along the rows (a lane reduction from the zero word), lays the
  512 sums of the x-block out as a column and broadcasts it across the tile, lays the 1024 sums of the y-block out as
  a column, transposes that to a row and broadcasts it down the tile; it narrows both blocks (the identity on extended
  reals), transposes the y-block and multiplies on the matrix unit into a zero accumulator, which at (p, q) is the sum
  over k of x[p,k] · y[q,k]; and it combines them as 0 − ((|x_p|² − 2 · ⟨x_p, y_q⟩) + |y_q|²). So the tile's entry
  (p, q) is `entry` of row p of the x-block and row q of the y-block, subtracting from zero being negation.
-/
import proofs.«169501_j78769700208929_1_alg».proof.Proof.Gen.KernelIdeal.Skeleton
import proofs.«169501_j78769700208929_1_alg».proof.Proof.LibRowLayers
import proofs.«169501_j78769700208929_1_alg».proof.Proof.NegSqDist
import Idealize.ShloMosaic.Lib.ValueLayout

noncomputable section

open scoped BigOperators

namespace Cert.KernelIdeal.TileEntry

open Cert.KernelIdeal Cert.KernelIdeal.Gen Idealize.ShloMosaic Idealize.ShloMosaic.ValueIdx Cert.NegSqDist

/-! ## The two squared lengths, as the tile sees them -/

/-- The row sums of squares of the x-block, made a column and broadcast across: at (p, q) the squared length of row p. -/
theorem sqLen_across (x : FVec Ideal S512x1024 .f32) (p : Fin 512) (q : Fin 1024) :
    broadcastTo S512x1024
        (shapeCast S512x1 (multiReduction .add [1] S512 (mulf x x) 0x00000000#32 reduces_S512x1024_S512 (.inl rfl) rfl)
          shapeCasts_S512_S512x1) broadcasts_S512x1_S512x1024 (ix2 p q)
      = ∑ k : Fin 1024, x (ix2 p k) * x (ix2 p k) :=
  (RowLayers.broadcastColumn_apply broadcasts_S512x1_S512x1024 _ p q).trans
    ((RowLayers.column_apply shapeCasts_S512_S512x1 _ p (0 : Fin 1)).trans
      (RowLayers.rowSquares_apply reduces_S512x1024_S512 (.inl rfl) rfl x p))

/-- The row sums of squares of the y-block, made a column, transposed to a row and broadcast down: at (p, q) the squared
    length of row q. -/
theorem sqLen_down (y : FVec Ideal S1024x1024 .f32) (p : Fin 512) (q : Fin 1024) :
    broadcastTo S512x1024
        (transpose S1x1024 [1, 0]
          (shapeCast S1024x1 (multiReduction .add [1] S1024 (mulf y y) 0x00000000#32 reduces_S1024x1024_S1024 (.inl rfl) rfl)
            shapeCasts_S1024_S1024x1) transposes_S1024x1_p1_0_S1x1024) broadcasts_S1x1024_S512x1024 (ix2 p q)
      = ∑ k : Fin 1024, y (ix2 q k) * y (ix2 q k) :=
  (broadcastTo_1b_ab_apply _ broadcasts_S1x1024_S512x1024 p q).trans
    ((transpose_ix2_apply _ transposes_S1024x1_p1_0_S1x1024 (0 : Fin 1) q).trans
      ((RowLayers.column_apply shapeCasts_S1024_S1024x1 _ q (0 : Fin 1)).trans
        (RowLayers.rowSquares_apply reduces_S1024x1024_S1024 (.inl rfl) rfl y q)))

/-! ## The cross term: the matrix unit's product of the x-block with the transposed y-block -/

theorem lhs_axis0 (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs_axis1 (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
theorem rhs_axis0 (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
theorem rhs_axis1 (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The product of a 512×1024 block with a 1024×1024 matrix into the zero accumulator, at (p, q): the sum over the
    contracted coordinate k of left[p,k] · right[k,q]. -/
theorem product_apply {φ₁ φ₂ : FTy} (l : FVec Ideal S512x1024 φ₁) (r : FVec Ideal S1024x1024 φ₂) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  refine (Ideal.matmul_constant_zero_apply dot_S512x1024_S1024x1024_S512x1024_1_0_0_1_n_n none l r (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q)
      ((contrEquiv1 dot_S512x1024_S1024x1024_S512x1024_1_0_0_1_n_n 1024 rfl rfl).symm k) = ix2 p k :=
    funext fun a => Fin.ext (by
      match a with
      | ⟨0, _⟩ => exact lhs_axis0 _ _
      | ⟨1, _⟩ => exact (lhs_axis1 _ _).trans hk)
  have er : dot_S512x1024_S1024x1024_S512x1024_1_0_0_1_n_n.rhsIdx (ix2 p q)
      ((contrEquiv1 dot_S512x1024_S1024x1024_S512x1024_1_0_0_1_n_n 1024 rfl rfl).symm k) = ix2 k q :=
    funext fun a => Fin.ext (by
      match a with
      | ⟨0, _⟩ => exact (rhs_axis0 _ _).trans hk
      | ⟨1, _⟩ => exact rhs_axis1 _ _)
  rw [el, er]

/-- With the right operand the transposed (and narrowed) y-block and the left the narrowed x-block: at (p, q) the inner
    product of row p of the x-block with row q of the y-block. Narrowing a float format changes no extended real. -/
theorem cross_apply (x : FVec Ideal S512x1024 .f32) (y : FVec Ideal S1024x1024 .f32) (p : Fin 512) (q : Fin 1024) :
    matmul dot_S512x1024_S1024x1024_S512x1024_1_0_0_1_n_n none (truncf .bf16 x bitsLt_bf16_f32)
        (transpose S1024x1024 [1, 0] (truncf .bf16 y bitsLt_bf16_f32) transposes_S1024x1024_p1_0_S1024x1024)
        (constant S512x1024 .f32 0x00000000#32) (ix2 p q)
      = ∑ k : Fin 1024, x (ix2 p k) * y (ix2 q k) := by
  refine (product_apply _ _ p q).trans (Finset.sum_congr rfl fun k _ => ?_)
  rw [transpose_ix2_apply _ transposes_S1024x1024_p1_0_S1024x1024 k q]
  rfl

/-! ## The tile's entry -/

/-- The body's stored value at (p, q) is `entry` of row p of the x-block and row q of the y-block. -/
theorem pay_ix2 (x : Vec Ideal S512x1024 .f32) (y : Vec Ideal S1024x1024 .f32) (p : Fin 512) (q : Fin 1024) :
    k0_pay1 (F := Ideal) x y (ix2 p q) = entry (fun k => x (ix2 p k)) (fun k => y (ix2 q k)) := by
  unfold k0_pay1
  dsimp only
  rw [subf_apply, addf_apply, subf_apply, mulf_apply, sqLen_across, sqLen_down, cross_apply]
  exact zero_word_sub _

/-- The same at any index of the tile, its coordinates read off the index. -/
theorem pay_apply (x : Vec Ideal S512x1024 .f32) (y : Vec Ideal S1024x1024 .f32) (j : S512x1024.Idx) :
    k0_pay1 (F := Ideal) x y j = entry (fun k => x (ix2 (rowOf j) k)) (fun k => y (ix2 (colOf j) k)) := by
  obtain ⟨p, q, rfl⟩ : ∃ (p : Fin 512) (q : Fin 1024), j = ix2 p q := ⟨j 0, j 1, eq_ix2 j⟩
  exact pay_ix2 x y p q

end Cert.KernelIdeal.TileEntry

end
-- ==== Proof.ArrayValue.lean ====
/-
  From tiles to the array: after the kernel's run the output array holds `negSqDist` of the two argument arrays.

  The grid has 8 × 8 points. At point (a, b) the kernel reads rows 512a … 512a+511 of x (all 1024 columns) and rows
  1024b … 1024b+1023 of y, and writes the 512 × 1024 tile of the output whose corner is (512a, 1024b). The tile's entry
  (p, q) is `entry` of row p of the x-block and row q of the y-block, which are rows 512a+p of x and 1024b+q of y: the
  rows `negSqDist` reads at the output index (512a+p, 1024b+q). So each point writes back its tile of `negSqDist x y`.
  The 64 tiles cover the 4096 × 8192 output (the point covering (r, s) is (r / 512, s / 1024)), hence the array.
-/
import proofs.«169501_j78769700208929_1_alg».proof.Proof.Gen.KernelIdeal.Value
import proofs.«169501_j78769700208929_1_alg».proof.Proof.TileEntry

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.NegSqDist
open Idealize.ShloMosaic.Pipeline (Dat)

variable (m : (ℓ : Loc nD τ sig) → Buf (Elt Ideal) ℓ) (ρ : Dev nD → PrngReg)

/-- The body's loads and its store start at the corner of their buffers. -/
theorem corner : (![0, 0] : Fin 2 → Nat) = fun _ => 0 := funext fun a => by fin_cases a <;> rfl

/-- The index maps over the 64 points: the x-window's block row is the output tile's block row and the y-window's block
    row is the output tile's block column; both input windows take all columns; the tile indices are below 8. -/
theorem tile_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every tile of the 8 × 8 tiling is some point's. -/
theorem tile_onto : ∀ (a : Fin 8) (b : Fin 8), ∃ t : Fin cfg0.N, win0_2.index t = ![a.val, b.val] :=
  (by decide +kernel : ∀ (a : Fin 8) (b : Fin 8), ∃ t : Fin grid0.N, win0_2.index t = ![a.val, b.val])

/-- What point `t` writes back is its tile of `negSqDist` of the argument arrays. -/
theorem flushed_eq (c : Dev nD) (t : Fin cfg0.N) :
    (dats m 0 c).flushed 2 t
      = ((cfg0.win 2).blk t).view.read (Elt Ideal) (negSqDist (V m c main_arg0) (V m c main_arg1)) := by
  rw [Value.flushed2]
  unfold out0_2
  rw [View.canon_unit_zero corner]
  simp only [View.ld_unit_zero (S := S512x1024) corner, View.ld_unit_zero (S := S1024x1024) corner]
  obtain ⟨e00, e01, e10, e11, -, -⟩ := tile_facts t
  funext j
  show k0_pay1 (F := Ideal) (iblk m c 0 t) (iblk m c 1 t) j = _
  refine (TileEntry.pay_apply (iblk m c 0 t) (iblk m c 1 t) j).trans ?_
  show _ = entry (fun k => V m c main_arg0 (ix2 (rowOf (((cfg0.win 2).blk t).view.emb j)) k))
      (fun k => V m c main_arg1 (ix2 (colOf (((cfg0.win 2).blk t).view.emb j)) k))
  refine congrArg₂ entry (funext fun k => ?_) (funext fun k => ?_)
  · show V m c main_arg0 (((cfg0.win 0).blk t).view.emb (ix2 (rowOf j) k)) = _
    refine congrArg (V m c main_arg0) (funext fun a => Fin.ext ?_)
    match a with
    | ⟨0, _⟩ =>
      show win0_0.index t (0 : Fin 2) * 512 + 1 * (j 0).val = win0_2.index t (0 : Fin 2) * 512 + 1 * (j 0).val
      rw [e00]
    | ⟨1, _⟩ =>
      show win0_0.index t (1 : Fin 2) * 1024 + 1 * k.val = k.val
      rw [e01]; omega
  · show V m c main_arg1 (((cfg0.win 1).blk t).view.emb (ix2 (colOf j) k)) = _
    refine congrArg (V m c main_arg1) (funext fun a => Fin.ext ?_)
    match a with
    | ⟨0, _⟩ =>
      show win0_1.index t (0 : Fin 2) * 1024 + 1 * (j 1).val = win0_2.index t (1 : Fin 2) * 1024 + 1 * (j 1).val
      rw [e10]
    | ⟨1, _⟩ =>
      show win0_1.index t (1 : Fin 2) * 1024 + 1 * k.val = k.val
      rw [e11]; omega

/-- An output index is in point `t`'s tile iff each coordinate is in the tile's range on its axis. -/
theorem mem_tile (t : Fin cfg0.N) (i : S4096x8192.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- The 64 tiles cover the output: (r, s) lies in the tile of the point with tile index (r / 512, s / 1024). -/
theorem covered (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := tile_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the run is `negSqDist` of the argument arrays as launched. -/
theorem final (c : Dev nD) :
    (dats m 0 c).arrAt 2 cfg0.N = negSqDist (m ((c : Thread nD τ).loc main_arg0)) (m ((c : Thread nD τ).loc main_arg1)) :=
  (dats m 0 c).arrAt_eq_of_cover 2 (negSqDist (V m c main_arg0) (V m c main_arg1)) (fun t _ => flushed_eq m c t) covered

/-- The kernel's run: it terminates with the output array at `negSqDist` of the arguments and the arguments unchanged. -/
theorem run : θ_run defs (onTc (τ := τ) (main (F := Ideal))) ⟨m, fun _ => 0, ρ⟩ fun r => ∀ c : Dev nD,
      r.2.mem ((c : Thread nD τ).loc main_v0) = negSqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference computes `negSqDist`.

  Its result at (p, q) is the negation of (a − 2 · b) + c, where a is the sum of squares of row p of x — a host sum from
  the zero word, made a column and broadcast across —, b the host's contraction of row p of x with row q of y, and c the
  sum of squares of row q of y, made a row and broadcast down. The zero word is the extended real 0, so each host sum is
  the plain sum, and the result is `entry` of the two rows.
-/
import proofs.«169501_j78769700208929_1_alg».proof.Proof.Gen.ReferenceIdeal.Read
import proofs.«169501_j78769700208929_1_alg».proof.Proof.NegSqDist

noncomputable section

open scoped BigOperators

namespace Cert.ReferenceIdeal.RefValue

open Cert.ReferenceIdeal Cert.ReferenceIdeal.Gen Cert.ReferenceIdeal.Read Idealize.ShloMosaic Idealize.ShloMosaic.ValueIdx
  Cert.NegSqDist

/-- Entry (p, q) reads the squares of x along row p, -/
theorem ix_xsq (p : Fin 4096) (q : Fin 8192) (k : Fin 1024) :
    idx_main_v1 (idx_main_v5 (idx_main_v8 (ix2 p q))) k = ix2 p k :=
  funext fun a => Fin.ext (by match a with | ⟨0, _⟩ => rfl | ⟨1, _⟩ => rfl)
/-- the squares of y along row q, -/
theorem ix_ysq (p : Fin 4096) (q : Fin 8192) (k : Fin 1024) :
    idx_main_v3 (idx_main_v10 (idx_main_v11 (ix2 p q))) k = ix2 q k :=
  funext fun a => Fin.ext (by match a with | ⟨0, _⟩ => rfl | ⟨1, _⟩ => rfl)
/-- and, in the contraction, x at (p, k) -/
theorem ix_left (p : Fin 4096) (q : Fin 8192) (k : Fin 1024) : lidx_main_v4 (ix2 p q) k = ix2 p k :=
  funext fun a => Fin.ext (by match a with | ⟨0, _⟩ => rfl | ⟨1, _⟩ => rfl)
/-- times y at (q, k). -/
theorem ix_right (p : Fin 4096) (q : Fin 8192) (k : Fin 1024) : ridx_main_v4 (ix2 p q) k = ix2 q k :=
  funext fun a => Fin.ext (by match a with | ⟨0, _⟩ => rfl | ⟨1, _⟩ => rfl)

/-- The reference's last stage is `negSqDist` of its two arguments. -/
theorem result_eq (x : (⟨S4096x1024, .f32⟩ : BufTy).Contents (Elt Ideal)) (y : (⟨S8192x1024, .f32⟩ : BufTy).Contents (Elt Ideal)) :
    val_main_v13 (F := Ideal) x y = negSqDist x y := by
  funext i
  obtain ⟨p, q, rfl⟩ : ∃ (p : Fin 4096) (q : Fin 8192), i = ix2 p q := ⟨i 0, i 1, eq_ix2 i⟩
  rw [negSqDist_ix2, val_main_v13_apply, val_main_v12_apply, val_main_v9_apply, val_main_v8_apply, val_main_v5_apply,
    val_main_v1_apply, val_main_v7_apply, val_main_v6_apply, val_main_v4_apply, val_main_v11_apply, val_main_v10_apply,
    val_main_v3_apply]
  simp only [val_main_v0_apply, val_main_v2_apply, val_main_cst_apply, val_main_cst_0_apply, val_main_cst_1_apply,
    ix_xsq, ix_ysq, ix_left, ix_right, Ideal.hostNegf_def, Ideal.negf_def, Ideal.addf_def, Ideal.subf_def, Ideal.mulf_def,
    Ideal.ofBits_def, Ideal.ofBits_zero_f32, zero_add]
  rfl

end Cert.ReferenceIdeal.RefValue

end
-- ==== Proof.lean ====
/-
  The negated squared distance between every row of x (4096 × 1024) and every row of y (8192 × 1024), computed tile by
  tile through |x_p|² − 2⟨x_p, y_q⟩ + |y_q|², against the same expansion written over the whole arrays.

  Both programs compute, at (p, q), −((Σₖ x[p,k]² − 2 · Σₖ x[p,k]·y[q,k]) + Σₖ y[q,k]²) with the same grouping, so on the
  extended reals their results are the same expression of row p of x and row q of y and no law beyond 0 − v = −v is
  needed (the tiled program negates by subtracting from zero); in particular nothing is asked of the inputs' finiteness.
  The tiled program's inner product goes through a narrowing of both operands to a shorter float format and the matrix
  unit with a zero accumulator: on extended reals the narrowing is the identity and the product is the plain sum.

  `NegSqDist` states the function; `TileEntry` reads the tile body at one entry; `ArrayValue` takes the 64 tiles to the
  output array and re-posts the kernel's run; `RefValue` reads the whole-array program down to the same function. The
  three frames are the generated ones (the whole-array program's is its run with the result dropped), and the
  idealization rewrote nothing, so its preservation claim is trivial.
-/
import proofs.«169501_j78769700208929_1_alg».proof.Defs
import proofs.«169501_j78769700208929_1_alg».proof.Proof.Gen.Kernel
import proofs.«169501_j78769700208929_1_alg».proof.Proof.Gen.Kernel.Skeleton
import proofs.«169501_j78769700208929_1_alg».proof.Proof.Gen.Kernel.Launch
import proofs.«169501_j78769700208929_1_alg».proof.Proof.Gen.Kernel.Points
import proofs.«169501_j78769700208929_1_alg».proof.Proof.Gen.Kernel.Frame
import proofs.«169501_j78769700208929_1_alg».proof.Proof.Gen.KernelIdeal
import proofs.«169501_j78769700208929_1_alg».proof.Proof.Gen.KernelIdeal.Skeleton
import proofs.«169501_j78769700208929_1_alg».proof.Proof.Gen.KernelIdeal.Launch
import proofs.«169501_j78769700208929_1_alg».proof.Proof.Gen.KernelIdeal.Points
import proofs.«169501_j78769700208929_1_alg».proof.Proof.Gen.KernelIdeal.Frame
import proofs.«169501_j78769700208929_1_alg».proof.Proof.Gen.ReferenceIdeal
import proofs.«169501_j78769700208929_1_alg».proof.Proof.Gen.Pre_finite_inputs
import proofs.«169501_j78769700208929_1_alg».proof.Proof.Gen.KernelIdeal.Value
import proofs.«169501_j78769700208929_1_alg».proof.Proof.Gen.ReferenceIdeal.Run
import proofs.«169501_j78769700208929_1_alg».proof.Proof.Gen.ReferenceIdeal.Read
import proofs.«169501_j78769700208929_1_alg».proof.Proof.ArrayValue
import proofs.«169501_j78769700208929_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The whole-array program's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `negSqDist` of the arguments: the tiled one by its 64 tiles (`ArrayValue.run`), the
    whole-array one by its stages read at an index (`RefValue.result_eq`), from arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v13_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
